-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x8192 : Shape := ⟨2, ![8192, 8192]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.RbfSpec.lean ====
/-
  The Gaussian (radial basis function) kernel matrix of two families of 8192 rows of length 256, as one function
  on the extended reals. Entry (i, j) is

      exp ( c · max ( (‖xᵢ‖² + ‖yⱼ‖²) − t · ⟨xᵢ, yⱼ⟩ , z ) )

  where ‖xᵢ‖² = Σ_d x[i,d]·x[i,d], ⟨xᵢ, yⱼ⟩ = Σ_d x[i,d]·y[j,d], and c, t, z are the f32 words 0xBF800000 (−1),
  0x40000000 (2) and 0x00000000 (0). The three words are kept as words: both programs carry the same ones in the
  same places and no law of arithmetic is applied to them, so what they denote never matters. The sums are sums of
  extended reals over a finite index set, which do not depend on an order of summation.

  `entry` is one matrix entry from the three sums it depends on, so that a tile of the matrix and the whole matrix
  are stated with one formula; `sqLen` and `inner` are the row sums of the whole arrays; `gram` is the matrix.
-/
import Idealize.ShloMosaic.PureOps.Ideal
import Idealize.ShloMosaic.Lib.ValueIdx

noncomputable section

namespace Cert.Rbf

open Idealize.ShloMosaic Idealize.ShloMosaic.ValueIdx

/-- One entry of the matrix from the squared length `a` of the row of `x`, the squared length `b` of the row of
    `y`, and their inner product `c`: the squared distance (a + b) − 2c, clipped below at 0, negated, exponentiated. -/
def entry (a b c : EReal) : EReal :=
  Ideal.exp (Ideal.ofBits .f32 0xBF800000#32
    * max ((a + b) - Ideal.ofBits .f32 0x40000000#32 * c) (Ideal.ofBits .f32 0x00000000#32))

/-- The squared length of row `i`. -/
def sqLen (x : FVec Ideal ⟨2, ![8192, 256]⟩ .f32) (i : Fin 8192) : EReal :=
  ∑ d : Fin 256, x (ix2 i d) * x (ix2 i d)

/-- The inner product of row `i` of `x` with row `j` of `y`. -/
def inner (x y : FVec Ideal ⟨2, ![8192, 256]⟩ .f32) (i j : Fin 8192) : EReal :=
  ∑ d : Fin 256, x (ix2 i d) * y (ix2 j d)

/-- The kernel matrix: entry (i, j) from row `i` of `x` and row `j` of `y`. -/
def gram (x y : FVec Ideal ⟨2, ![8192, 256]⟩ .f32) : FVec Ideal ⟨2, ![8192, 8192]⟩ .f32 :=
  fun o => entry (sqLen x (o 0)) (sqLen y (o 1)) (inner x y (o 0) (o 1))

end Cert.Rbf

end
-- ==== Proof.TileEntry.lean ====
/-
  One tile of the kernel matrix. The body of the kernel takes a block of 1024 rows of `x` and a block of 1024 rows
  of `y` and stores a 1024 × 1024 tile. Read at position (p, q) of the tile, what it stores is `Rbf.entry` of

    • the squared length of row p of the `x` block: the lane sum of the block's squares, kept as a column
      [1024] → [1024, 1] and spread along the tile's rows;
    • the squared length of row q of the `y` block: the same column, turned into a row [1024, 1] → [1, 1024] and
      spread along the tile's columns;
    • the inner product of the two rows: the matrix product of the two blocks contracted over the row length, into a
      zero accumulator. The narrowing of the operands to a shorter float format before the product is the identity
      on extended reals.

  The first lemmas read each re-laying step (column cast, transpose, the two spreads) and the lane sum at an index;
  `gemm_apply` reads the matrix product; `tile_apply` puts them together.
-/
import proofs.«117222_j65481071402880_1_alg».proof.Proof.Gen.KernelIdeal.Skeleton
import proofs.«117222_j65481071402880_1_alg».proof.Proof.RbfSpec
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-! ## The re-laying steps, read at an index -/

/-- A vector of 1024 entries kept as a column: entry (p, ·) of the column is entry p of the vector. -/
theorem col_cast_apply (v : S1024.Idx → EReal) (h : S1024.ShapeCasts S1024x1) (p : Fin 1024) (u : Fin 1) :
    shapeCast S1024x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column spread along the rows of a square tile: entry (p, q) is the column's entry p. -/
theorem col_spread_apply (v : S1024x1.Idx → EReal) (h : S1024x1.Broadcasts S1024x1024) (p q : Fin 1024) :
    broadcastTo S1024x1024 v h (ix2 p q) = v (ix2 p (0 : Fin 1)) := by
  refine broadcastTo_apply v h (ix2 p q) (ix2 p (0 : Fin 1)) fun ax => ?_
  match ax with
  | ⟨0, _⟩ =>
    show p.val = if (1024 : Nat) = 1 then 0 else p.val
    rw [if_neg (by decide)]
  | ⟨1, _⟩ =>
    show 0 = if (1 : Nat) = 1 then 0 else q.val
    rw [if_pos rfl]

/-- The lane sum of a 1024 × 256 block, at row p: the sum over the row. -/
theorem lane_sum_apply (v : FVec Ideal S1024x256 .f32) (h : S1024x256.Reduces [1] S1024) (hacc : (0x00000000#32 : BitVec 32) = 0x00000000#32) (p : Fin 1024) :
    multiReduction .add [1] S1024 v 0x00000000#32 h (.inl rfl) hacc (ix1 p) = ∑ d : Fin 256, v (ix2 p d) :=
  (Ideal.multiReduction_add_single v 0x00000000#32 h (.inl rfl) hacc (ix1 p)).trans
    (Finset.sum_congr rfl fun d _ => congrArg v (funext fun a => Fin.ext (by
      match a with
      | ⟨0, _⟩ => rfl
      | ⟨1, _⟩ => rfl)))

/-- The lane sum kept as a column and spread along the tile's rows: at (p, q) the sum over row p. -/
theorem row_len_apply (v : FVec Ideal S1024x256 .f32) (h : S1024x256.Reduces [1] S1024) (hacc : (0x00000000#32 : BitVec 32) = 0x00000000#32) (hc : S1024.ShapeCasts S1024x1)
    (hb : S1024x1.Broadcasts S1024x1024) (p q : Fin 1024) :
    broadcastTo S1024x1024 (shapeCast S1024x1 (multiReduction .add [1] S1024 v 0x00000000#32 h (.inl rfl) hacc) hc) hb (ix2 p q)
      = ∑ d : Fin 256, v (ix2 p d) :=
  (col_spread_apply _ hb p q).trans ((col_cast_apply _ hc p 0).trans (lane_sum_apply v h hacc p))

/-- The same column turned into a row and spread along the tile's columns: at (p, q) the sum over row q. -/
theorem col_len_apply (v : FVec Ideal S1024x256 .f32) (h : S1024x256.Reduces [1] S1024) (hacc : (0x00000000#32 : BitVec 32) = 0x00000000#32) (hc : S1024.ShapeCasts S1024x1)
    (ht : S1024x1.Transposes [1, 0] S1x1024) (hb : S1x1024.Broadcasts S1024x1024) (p q : Fin 1024) :
    broadcastTo S1024x1024 (transpose S1x1024 [1, 0] (shapeCast S1024x1 (multiReduction .add [1] S1024 v 0x00000000#32 h (.inl rfl) hacc) hc) ht) hb (ix2 p q)
      = ∑ d : Fin 256, v (ix2 q d) :=
  (broadcastTo_1b_ab_apply _ hb p q).trans
    ((transpose_ix2_apply _ ht (0 : Fin 1) q).trans ((col_cast_apply _ hc q 0).trans (lane_sum_apply v h hacc q)))

/-! ## The matrix product, read at an index -/

/-- The product's left operand index at output (i₀, i₁) and contraction index k has row i₀ … -/
theorem lhs_axis0 (i : S1024x1024.Idx) (k : dot_S1024x256_S1024x256_S1024x1024_1_1_0_0_n_n.contr.Idx) :
    (dot_S1024x256_S1024x256_S1024x1024_1_1_0_0_n_n.lhsIdx i k 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
/-- … and column k; -/
theorem lhs_axis1 (i : S1024x1024.Idx) (k : dot_S1024x256_S1024x256_S1024x1024_1_1_0_0_n_n.contr.Idx) :
    (dot_S1024x256_S1024x256_S1024x1024_1_1_0_0_n_n.lhsIdx i k 1).val = (k ⟨0, by decide⟩).val :=
  dot_S1024x256_S1024x256_S1024x1024_1_1_0_0_n_n.lhsIdx_val_of_single rfl i k
/-- the right operand index has row i₁ … -/
theorem rhs_axis0 (i : S1024x1024.Idx) (k : dot_S1024x256_S1024x256_S1024x1024_1_1_0_0_n_n.contr.Idx) :
    (dot_S1024x256_S1024x256_S1024x1024_1_1_0_0_n_n.rhsIdx i k 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
/-- … and column k: both blocks are contracted along their rows' length. -/
theorem rhs_axis1 (i : S1024x1024.Idx) (k : dot_S1024x256_S1024x256_S1024x1024_1_1_0_0_n_n.contr.Idx) :
    (dot_S1024x256_S1024x256_S1024x1024_1_1_0_0_n_n.rhsIdx i k 1).val = (k ⟨0, by decide⟩).val :=
  dot_S1024x256_S1024x256_S1024x1024_1_1_0_0_n_n.rhsIdx_val_of_single rfl i k

/-- The matrix product of the two blocks into a zero accumulator, at (p, q): the inner product of row p of the first
    block with row q of the second. Narrowing the operands' float format first changes nothing on extended reals. -/
theorem gemm_apply (x0 x1 : FVec Ideal S1024x256 .f32) (hb : FTy.bits .bf16 < FTy.bits .f32) (p q : Fin 1024) :
    matmul dot_S1024x256_S1024x256_S1024x1024_1_1_0_0_n_n none (truncf .bf16 x0 hb) (truncf .bf16 x1 hb) (constant S1024x1024 .f32 0x00000000#32) (ix2 p q)
      = ∑ d : Fin 256, x0 (ix2 p d) * x1 (ix2 q d) := by
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k := funext fun a => Fin.ext (by
    match a with
    | ⟨0, _⟩ => exact lhs_axis0 _ _
    | ⟨1, _⟩ => exact (lhs_axis1 _ _).trans hk)
  have er : dot_S1024x256_S1024x256_S1024x1024_1_1_0_0_n_n.rhsIdx (ix2 p q) ((contrEquiv1 dot_S1024x256_S1024x256_S1024x1024_1_1_0_0_n_n 256 rfl rfl).symm k) = ix2 q k := funext fun a => Fin.ext (by
    match a with
    | ⟨0, _⟩ => exact rhs_axis0 _ _
    | ⟨1, _⟩ => exact (rhs_axis1 _ _).trans hk)
  rw [el, er, truncf_apply, truncf_apply]

/-! ## The tile -/

/-- The exponential of a vector, at an index. -/
theorem exp_apply {s : Shape} {φ : FTy} (a : FVec Ideal s φ) (i : s.Idx) : exp a i = Ideal.exp (a i) := rfl

/-- What the body stores at (p, q) of the tile: `Rbf.entry` of the squared length of row p of the first block, the
    squared length of row q of the second, and the inner product of the two rows. -/
theorem tile_apply (x0 x1 : FVec Ideal S1024x256 .f32) (p q : Fin 1024) :
    k0_pay1 (F := Ideal) x0 x1 (ix2 p q)
      = Cert.Rbf.entry (∑ d : Fin 256, x0 (ix2 p d) * x0 (ix2 p d)) (∑ d : Fin 256, x1 (ix2 q d) * x1 (ix2 q d))
          (∑ d : Fin 256, x0 (ix2 p d) * x1 (ix2 q d)) := by
  unfold k0_pay1 Cert.Rbf.entry
  dsimp only
  simp only [exp_apply, mulf_apply, maximumf_apply, subf_apply, addf_apply, broadcast_apply]
  rw [row_len_apply, col_len_apply, gemm_apply]
  rfl

end Cert.KernelIdeal.Tile

end
-- ==== Proof.WholeMatrix.lean ====
/-
  From tiles to the matrix. The grid has 8 × 8 points; at point (a, b) the pipeline hands the body rows
  1024·a … 1024·a + 1023 of `x` and rows 1024·b … 1024·b + 1023 of `y`, and writes the body's 1024 × 1024 tile back
  as block (a, b) of the 8192 × 8192 result. Entry (p, q) of that tile is `Rbf.entry` of the squared lengths of row p
  of the `x` block and row q of the `y` block and of their inner product (`Tile.tile_apply`); row p of the `x` block
  is row 1024·a + p of `x`, row q of the `y` block is row 1024·b + q of `y`, and (1024·a + p, 1024·b + q) is where
  the entry lands. So each point writes back exactly its block of `Rbf.gram x y` (`flushed_eq`). Every entry (i, j)
  of the result lies in the block of the point (i / 1024, j / 1024), and every point writes back (`cover`), so after
  the run the result array is `Rbf.gram x y` (`final`, `run`).
-/
import proofs.«117222_j65481071402880_1_alg».proof.Proof.Gen.KernelIdeal.Value
import proofs.«117222_j65481071402880_1_alg».proof.Proof.TileEntry

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The three index maps over the 64 grid points: the `x` block moves with the tile's row of blocks and the `y` block
    with its column of blocks, each taking whole rows; the tile's block indices stay below 8. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every one of the 8 × 8 blocks of the result is some point's. -/
theorem idx_onto : ∀ (a b : Fin 8), ∃ t : Fin cfg0.N, win0_2.index t = ![a.val, b.val] :=
  (by decide +kernel : ∀ (a b : Fin 8), ∃ t : Fin grid0.N, win0_2.index t = ![a.val, b.val])

/-- The matrix the result array is shown to hold, from the argument arrays as launched. -/
abbrev target (c : Dev nD) : S8192x8192.Idx → Elt Ideal .f32 :=
  Cert.Rbf.gram (m ((c : Thread nD τ).loc main_arg0)) (m ((c : Thread nD τ).loc main_arg1))

/-- Row p of the `x` block at point t, at column d: row (block row of t)·1024 + p of `x`, the row of the result in
    which entry (p, ·) of the tile lands. -/
theorem xblock_apply (c : Dev nD) (t : Fin cfg0.N) (p q : Fin 1024) (d : Fin 256) :
    (iblk m c 0 t : Vec Ideal S1024x256 .f32) (ix2 p d)
      = (m ((c : Thread nD τ).loc main_arg0) : S8192x256.Idx → Elt Ideal .f32)
          (@ix2 8192 256 ((((cfg0.win 2).blk t).view.emb (ix2 p q)) 0) d) := by
  obtain ⟨e0, e1, e2, e3, e4, e5⟩ := idx_facts t
  show V m c main_arg0 (((cfg0.win 0).blk t).view.emb (ix2 p d)) = _
  refine congrArg (V m c main_arg0) (funext fun a => Fin.ext ?_)
  match a with
  | ⟨0, _⟩ => show win0_0.index t (0 : Fin 2) * 1024 + 1 * p.val = win0_2.index t (0 : Fin 2) * 1024 + 1 * p.val; omega
  | ⟨1, _⟩ => show win0_0.index t (1 : Fin 2) * 256 + 1 * d.val = d.val; omega

/-- Row q of the `y` block at point t, at column d: row (block column of t)·1024 + q of `y`, the column of the result
    in which entry (·, q) of the tile lands. -/
theorem yblock_apply (c : Dev nD) (t : Fin cfg0.N) (p q : Fin 1024) (d : Fin 256) :
    (iblk m c 1 t : Vec Ideal S1024x256 .f32) (ix2 q d)
      = (m ((c : Thread nD τ).loc main_arg1) : S8192x256.Idx → Elt Ideal .f32)
          (@ix2 8192 256 ((((cfg0.win 2).blk t).view.emb (ix2 p q)) 1) d) := by
  obtain ⟨e0, e1, e2, e3, e4, e5⟩ := idx_facts t
  show V m c main_arg1 (((cfg0.win 1).blk t).view.emb (ix2 q d)) = _
  refine congrArg (V m c main_arg1) (funext fun a => Fin.ext ?_)
  match a with
  | ⟨0, _⟩ => show win0_1.index t (0 : Fin 2) * 1024 + 1 * q.val = win0_2.index t (1 : Fin 2) * 1024 + 1 * q.val; omega
  | ⟨1, _⟩ => show win0_1.index t (1 : Fin 2) * 256 + 1 * d.val = d.val; omega

/-- WHAT POINT `t` WRITES BACK is block `t` of the kernel matrix of the arguments. -/
theorem flushed_eq (c : Dev nD) (t : Fin cfg0.N) :
    (dats m 0 c).flushed 2 t = ((cfg0.win 2).blk t).view.read (Elt Ideal) (target m c) := by
  rw [flushed2]
  unfold out0_2
  rw [View.canon_unit_zero origin]
  simp only [View.ld_unit_zero (S := S1024x256) origin]
  funext j
  obtain ⟨p, q, rfl⟩ : ∃ (p q : Fin 1024), j = ix2 p q := ⟨j 0, j 1, eq_ix2 j⟩
  show k0_pay1 (F := Ideal) (iblk m c 0 t) (iblk m c 1 t) (ix2 p q) = target m c (((cfg0.win 2).blk t).view.emb (ix2 p q))
  refine (Cert.KernelIdeal.Tile.tile_apply (iblk m c 0 t) (iblk m c 1 t) p q).trans ?_
  show _ = Cert.Rbf.entry (Cert.Rbf.sqLen _ _) (Cert.Rbf.sqLen _ _) (Cert.Rbf.inner _ _ _ _)
  unfold Cert.Rbf.sqLen Cert.Rbf.inner
  simp only [xblock_apply m c t p q, yblock_apply m c t p q]

/-- An entry of the result is in point `t`'s block iff each coordinate is in the block's range of 1024 on its axis. -/
theorem mem_blk (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every entry (i, j) of the result is in the block of the point whose block indices are (i / 1024, j / 1024), and
    that point writes back. -/
theorem cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE RESULT ARRAY after the run is the kernel matrix of the arguments. -/
theorem final (c : Dev nD) : (dats m 0 c).arrAt 2 cfg0.N = target m c :=
  (dats m 0 c).arrAt_eq_of_cover 2 (target m c) (fun t _ => flushed_eq m c t) cover

/-- The run, read: the result array at the kernel matrix of the argument arrays, the arguments unchanged. -/
theorem run : θ_run defs (onTc (τ := τ) (main (F := Ideal))) ⟨m, fun _ => 0, ρ⟩ fun r => ∀ c : Dev nD,
      r.2.mem ((c : Thread nD τ).loc main_v0) = target m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefIsGram.lean ====
/-
  The reference, read entry by entry. Its program squares each array and sums along the rows, takes all inner products
  of a row of `x` with a row of `y` in one contraction, spreads the two vectors of squared lengths along the rows and
  the columns of the 8192 × 8192 result, and then works entry by entry: (a + b) − 2·c, the maximum with 0, times −1,
  exponential. Each stage read at an index, outermost first, gives at entry (i, j) exactly `Rbf.entry` of the squared
  length of row i of `x`, of row j of `y`, and of their inner product. The host's sums start from the word 0, which
  denotes the extended real 0 and drops out of the sum.
-/
import proofs.«117222_j65481071402880_1_alg».proof.Proof.Gen.ReferenceIdeal.Read
import proofs.«117222_j65481071402880_1_alg».proof.Proof.RbfSpec

noncomputable section

namespace Cert.ReferenceIdeal.Whole

open Cert.ReferenceIdeal Cert.ReferenceIdeal.Gen Cert.ReferenceIdeal.Read Idealize.ShloMosaic Idealize.ShloMosaic.ValueIdx

/-- The reference's result is the kernel matrix of its two arguments. -/
theorem result_is_gram (x y : (⟨S8192x256, .f32⟩ : BufTy).Contents (Elt Ideal)) :
    val_main_v17 (F := Ideal) x y = Cert.Rbf.gram x y := by
  funext i
  -- the entries of `x` that the squared length spread along row i reads: row i₀
  have ex : ∀ k : Fin 256, idx_main_v1 (idx_main_v5 (idx_main_v7 i)) k = @ix2 8192 256 (i 0) k := fun k =>
    funext fun a => Fin.ext (by match a with | ⟨0, _⟩ => rfl | ⟨1, _⟩ => rfl)
  -- the entries of `y` that the squared length spread along column j reads: row i₁
  have ey : ∀ k : Fin 256, idx_main_v3 (idx_main_v6 (idx_main_v8 i)) k = @ix2 8192 256 (i 1) k := fun k =>
    funext fun a => Fin.ext (by match a with | ⟨0, _⟩ => rfl | ⟨1, _⟩ => rfl)
  -- the contraction at (i₀, i₁) pairs row i₀ of `x` with row i₁ of `y`
  have el : ∀ k : Fin 256, lidx_main_v4 i k = @ix2 8192 256 (i 0) k := fun k =>
    funext fun a => Fin.ext (by match a with | ⟨0, _⟩ => rfl | ⟨1, _⟩ => rfl)
  have er : ∀ k : Fin 256, ridx_main_v4 i k = @ix2 8192 256 (i 1) k := fun k =>
    funext fun a => Fin.ext (by match a with | ⟨0, _⟩ => rfl | ⟨1, _⟩ => rfl)
  rw [val_main_v17_apply, val_main_v16_apply, val_main_v15_apply, val_main_cst_3_apply, val_main_v14_apply,
    val_main_v13_apply, val_main_cst_2_apply, val_main_v12_apply, val_main_v11_apply, val_main_v10_apply,
    val_main_cst_1_apply, val_main_v4_apply, val_main_v9_apply, val_main_v7_apply, val_main_v5_apply, val_main_v1_apply,
    val_main_cst_apply, val_main_v8_apply, val_main_v6_apply, val_main_v3_apply, val_main_cst_0_apply]
  simp only [val_main_v0_apply, val_main_v2_apply, ex, ey, el, er, Ideal.hostUnary_exp_def, Ideal.mulf_def,
    Ideal.maximumf_def, Ideal.subf_def, Ideal.addf_def, Ideal.ofBits_def, Ideal.ofBits_zero_f32, zero_add,
    Cert.Rbf.gram, Cert.Rbf.entry, Cert.Rbf.sqLen, Cert.Rbf.inner]

end Cert.ReferenceIdeal.Whole

end
-- ==== Proof.lean ====
/-
  A kernel, tiled 1024 × 1024, for the Gaussian (radial basis function) kernel matrix of two arrays
  x, y : f32[8192, 256], against the same formula written over whole arrays. Both compute, at entry (i, j),

      exp ( −1 · max ( (‖xᵢ‖² + ‖yⱼ‖²) − 2 · ⟨xᵢ, yⱼ⟩ , 0 ) )      (`Rbf.gram`, Proof/RbfSpec.lean)

  with the same grouping of the three terms and the same three f32 words for −1, 2 and 0, so on the extended reals the
  two results are one function of the arguments and no property of the inputs is used: the finiteness precondition is
  never opened. What differs between the programs is only how the sums are laid out. The kernel takes the squared lengths
  by a lane sum inside each tile, keeps them as a column, turns one into a row, and gets the inner products from a
  matrix product of the two blocks whose operands it first narrows to a shorter float format — the identity on
  extended reals — into a zero accumulator; the reference sums whole arrays, contracts them in one `dot_general` and
  spreads the squared lengths over the 8192 × 8192 result. A finite sum of extended reals does not depend on how it
  is taken.

    • Proof/TileEntry.lean: entry (p, q) of the tile the body stores is `Rbf.entry` of the three row sums of its blocks;
    • Proof/WholeMatrix.lean: the 8 × 8 tiles are the blocks of `Rbf.gram x y` and fill the result, so the kernel's run
      ends with the result array at `Rbf.gram x y`;
    • Proof/RefIsGram.lean: the reference's result, read stage by stage at an index, is `Rbf.gram x y`.

  The three frame claims are the generated frame of each kernel program and, for the reference (host operations only),
  its generated run with the result dropped. The idealization rewrote no operation, so `preserves` has nothing to state.
-/
import proofs.«117222_j65481071402880_1_alg».proof.Defs
import proofs.«117222_j65481071402880_1_alg».proof.Proof.Gen.Kernel
import proofs.«117222_j65481071402880_1_alg».proof.Proof.Gen.Kernel.Skeleton
import proofs.«117222_j65481071402880_1_alg».proof.Proof.Gen.Kernel.Launch
import proofs.«117222_j65481071402880_1_alg».proof.Proof.Gen.Kernel.Points
import proofs.«117222_j65481071402880_1_alg».proof.Proof.Gen.Kernel.Frame
import proofs.«117222_j65481071402880_1_alg».proof.Proof.Gen.KernelIdeal
import proofs.«117222_j65481071402880_1_alg».proof.Proof.Gen.KernelIdeal.Skeleton
import proofs.«117222_j65481071402880_1_alg».proof.Proof.Gen.KernelIdeal.Launch
import proofs.«117222_j65481071402880_1_alg».proof.Proof.Gen.KernelIdeal.Points
import proofs.«117222_j65481071402880_1_alg».proof.Proof.Gen.KernelIdeal.Frame
import proofs.«117222_j65481071402880_1_alg».proof.Proof.Gen.ReferenceIdeal
import proofs.«117222_j65481071402880_1_alg».proof.Proof.Gen.Pre_finite_inputs
import proofs.«117222_j65481071402880_1_alg».proof.Proof.Gen.KernelIdeal.Value
import proofs.«117222_j65481071402880_1_alg».proof.Proof.Gen.ReferenceIdeal.Run
import proofs.«117222_j65481071402880_1_alg».proof.Proof.Gen.ReferenceIdeal.Read
import proofs.«117222_j65481071402880_1_alg».proof.Proof.WholeMatrix
import proofs.«117222_j65481071402880_1_alg».proof.Proof.RefIsGram
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read on extended reals. -/
theorem frame_kernelIdeal : Cert.frame_KernelIdeal := fun m ρ _ => Cert.KernelIdeal.Gen.frame m ρ

/-- The reference is a straight line of host operations: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was read on extended reals. -/
theorem preserves : Cert.preserves_Kernel_KernelIdeal := trivial

/-- From memories that agree on `x` and `y` both programs end with the result array at `Rbf.gram x y`: the kernel
    tile by tile, the reference stage by stage. -/
theorem algebraic : Cert.algebraic_KernelIdeal_ReferenceIdeal := by
  intro m ρ m' ρ' _ hagree
  refine ⟨fun c => Cert.KernelIdeal.Whole.target m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Whole.result_is_gram, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
